-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S64x2048 : Shape := ⟨2, ![64, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S4x2048x2048 .f32) (main_arg1 : FVec F S64x2048 .f32) (main_arg2 : FVec F S8192x2048 .f32) (main_arg3 : FVec F S8192x2048 .f32) (main_arg4 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S4x2048x2048 : Shape := ⟨3, ![4, 2048, 2048]⟩
abbrev S64x2048 : Shape := ⟨2, ![64, 2048]⟩
abbrev S8192x2048 : Shape := ⟨2, ![8192, 2048]⟩
abbrev S2048x8192 : Shape := ⟨2, ![2048, 8192]⟩
abbrev S8192x64 : Shape := ⟨2, ![8192, 64]⟩
abbrev S512x2048 : Shape := ⟨2, ![512, 2048]⟩
abbrev S2048x512 : Shape := ⟨2, ![2048, 512]⟩
abbrev S512x64 : Shape := ⟨2, ![512, 64]⟩
abbrev S512x512 : Shape := ⟨2, ![512, 512]⟩
abbrev S4x2048x64 : Shape := ⟨3, ![4, 2048, 64]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S64x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S2048x8192, .bf16⟩
  | .hbm, ⟨10, _⟩ => ⟨S64x2048, .bf16⟩
  | .hbm, ⟨11, _⟩ => ⟨S8192x2048, .f32⟩
  | .hbm, ⟨12, _⟩ => ⟨S8192x64, .f32⟩
  | .hbm, ⟨13, _⟩ => ⟨S4x2048x2048, .f32⟩
  | .hbm, ⟨14, _⟩ => ⟨S4x2048x64, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S64x2048, .bf16⟩
  | .local _ .vmem, ⟨9, _⟩ => ⟨S512x2048, .f32⟩
  | .local _ .vmem, ⟨10, _⟩ => ⟨S512x2048, .f32⟩
  | .local _ .vmem, ⟨11, _⟩ => ⟨S512x64, .f32⟩
  | .local _ .vmem, ⟨12, _⟩ => ⟨S512x64, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S512x64_S512x64_0_0 : ∀ a, (![0, 0] : Fin 2 → Nat) a + S512x64.size a ≤ S512x64.size a
  h_S512x64 : 0 < S512x64.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S4x2048x2048 : S8192x2048.ShapeCasts S4x2048x2048
  shapeCasts_S8192x64_S4x2048x64 : S8192x64.ShapeCasts S4x2048x64
  dot_S512x2048_S64x2048_S512x64_1_1_0_0_n_n_wf : DotDims.WF S512x2048 S64x2048 S512x64 [1] [1] [0] [0] [] []
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .bf16 = 32 ∨ (Rect.block (s := S64x2048) S64x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .f32 = 32 ∨ (Rect.block (s := S8192x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S8192x64.size a
  hwx0_6 : ∀ i : grid0.Coords, EltTy.bits .f32 = 32 ∨ (Rect.block (s := S8192x64) S512x64.size (cc0_transform_6 i) (hinb0_6 i)).WholeWords (EltTy.packing .f32)

variable [Facts₀]

def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) | ⟨_ + 7, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S64x2048 : Shape := ⟨2, ![64, 2048]⟩
abbrev S8192x2048 : Shape := ⟨2, ![8192, 2048]⟩
abbrev S2048x8192 : Shape := ⟨2, ![2048, 8192]⟩
abbrev S4x2048x64 : Shape := ⟨3, ![4, 2048, 64]⟩
abbrev S_ : Shape := ⟨0, ![]⟩
abbrev S4x2048x8192 : Shape := ⟨3, ![4, 2048, 8192]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S64x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S4x2048x64, .f32⟩
  | .hbm, ⟨6, _⟩ => ⟨S_, .f32⟩
  | .hbm, ⟨7, _⟩ => ⟨S4x2048x64, .f32⟩
  | .hbm, ⟨8, _⟩ => ⟨S4x2048x64, .f32⟩
  | .hbm, ⟨9, _⟩ => ⟨S4x2048x8192, .f32⟩
  | .hbm, ⟨10, _⟩ => ⟨S4x2048x8192, .f32⟩
  | .hbm, ⟨11, _⟩ => ⟨S4x2048x8192, .f32⟩
  | .hbm, ⟨12, _⟩ => ⟨S_, .f32⟩
  | .hbm, ⟨13, _⟩ => ⟨S4x2048x8192, .f32⟩
  | .hbm, ⟨14, _⟩ => ⟨S4x2048x8192, .f32⟩
  | .hbm, ⟨15, _⟩ => ⟨S_, .f32⟩
  | .hbm, ⟨16, _⟩ => ⟨S4x2048x8192, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_call1_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩

abbrev nD : Nat := 1
abbrev τ : Topo := Topo.v7x

variable {F : FTy → Type} [FloatOps F]

class Facts₀ : Prop where
  bcast_S_S4x2048x64 : S_.BroadcastsInDim S4x2048x64 (![] : Fin 0 → Fin S4x2048x64.rank)
  bcast_S_S4x2048x8192 : S_.BroadcastsInDim S4x2048x8192 (![] : Fin 0 → Fin S4x2048x8192.rank)
  dot_S4x2048x2048_S64x2048_S4x2048x64_2_1_01_0_n_n_wf : DotDims.WF S4x2048x2048 S64x2048 S4x2048x64 [2] [1] [0, 1] [0] [] []
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S64x2048_S4x2048x64_2_1_01_0_n_n : DotDims S4x2048x2048 S64x2048 S4x2048x64 where
  lhsContracting := [2]
  rhsContracting := [1]
  lhsNonContracting := [0, 1]
  rhsNonContracting := [0]
  lhsBatch := []
  rhsBatch := []
  wf := dot_S4x2048x2048_S64x2048_S4x2048x64_2_1_01_0_n_n_wf
def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KernelBodyData.lean ====
/-
  The contents the kernel's two output blocks hold after each grid point.

  The grid is 16 token tiles (outer) by 16 tiles of the intermediate axis (inner); point `n` is tile pair
  `(n / 16, n % 16)`. The output block of a token tile is resident across the inner axis: at inner index 0 it
  is zeroed and the first partial product added, at every later inner index the partial product of that
  tile of the intermediate axis is added to what the point before left (`acc`). The routing block is written
  at inner index 0 only and carried unchanged through the other fifteen points (`routeAt`), the last of which
  writes it back.
-/
import proofs.«124868_j4260607558028_2_alg».proof.Proof.Gen.Kernel.Frame
import proofs.«124868_j4260607558028_2_alg».proof.Proof.Gen.Kernel.Skeleton
import Idealize.ShloMosaic.Lib.Pipeline.TableIdle

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The partial product a point adds: the gated product of the token tile's two projections onto one tile of
    the intermediate axis, contracted with that tile of the down projection, added to `y`. -/
abbrev step (c : Dev nD) (t : Fin cfg0.N) (y : Vec F S512x2048 .f32) : Vec F S512x2048 .f32 :=
  k0_pay3 (iblk m c 0 t) (iblk m c 1 t) (iblk m c 2 t) (iblk m c 3 t) y

/-- What the output block holds after point `n`: at inner index 0 the first partial product over zero, later
    the point's partial product over what the point before left. -/
def acc (c : Dev nD) : (n : ℕ) → n < cfg0.N → Vec F S512x2048 .f32
  | 0, hn => step m c ⟨0, hn⟩ (k0_pay1 (F := F))
  | n + 1, hn =>
    if (n + 1) % 16 = 0 then step m c ⟨n + 1, hn⟩ (k0_pay1 (F := F))
    else step m c ⟨n + 1, hn⟩ (acc c n (Nat.lt_of_succ_lt hn))

/-- What the routing block holds after point `n`: written at inner index 0, carried afterwards. -/
def routeAt (c : Dev nD) : (n : ℕ) → n < cfg0.N → Vec F S512x64 .f32
  | 0, hn => k0_pay2 (iblk m c 0 ⟨0, hn⟩) (iblk m c 4 ⟨0, hn⟩)
  | n + 1, hn =>
    if (n + 1) % 16 = 0 then k0_pay2 (iblk m c 0 ⟨n + 1, hn⟩) (iblk m c 4 ⟨n + 1, hn⟩)
    else routeAt c n (Nat.lt_of_succ_lt hn)

theorem acc_first (c : Dev nD) (t : Fin cfg0.N) (h0 : t.val % 16 = 0) :
    acc m c t.val t.isLt = step m c t (k0_pay1 (F := F)) := by
  obtain ⟨n, hn⟩ := t
  cases n with
  | zero => rfl
  | succ n => exact (if_pos h0).trans rfl

theorem acc_later (c : Dev nD) (t : Fin cfg0.N) (h0 : ¬t.val % 16 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h0
  | succ n => exact (if_neg h0).trans rfl

theorem routeAt_first (c : Dev nD) (t : Fin cfg0.N) (h0 : t.val % 16 = 0) :
    routeAt m c t.val t.isLt = k0_pay2 (iblk m c 0 t) (iblk m c 4 t) := by
  obtain ⟨n, hn⟩ := t
  cases n with
  | zero => rfl
  | succ n => exact (if_pos h0).trans rfl

theorem routeAt_later (c : Dev nD) (t : Fin cfg0.N) (h0 : ¬t.val % 16 = 0) :
    routeAt m c t.val t.isLt = routeAt m c (t.val - 1) (Nat.lt_of_le_of_lt (Nat.sub_le _ _) t.isLt) := by
  obtain ⟨n, hn⟩ := t
  cases n with
  | zero => exact absurd (Nat.zero_mod _) h0
  | succ n => exact (if_neg h0).trans rfl

/-- The pipeline's proof data on core `c`: the arrays as the region finds them; each input's buffer at its
    block; the two outputs' at `acc` and `routeAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
    | ⟨6, _⟩ => routeAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = acc m c t.val t.isLt := by dsimp only [dats]
theorem after0_6 (c : Dev nD) (t : Fin cfg0.N) : (dats m 0 c).after 6 t = routeAt m c t.val t.isLt := by dsimp only [dats]

end Cert.Kernel.Body

end
-- ==== Proof.KernelBody.lean ====
/-
  The kernel body at one grid point, as a specification over the staged blocks, and the run of the whole
  pipelined call built from it.

  At a point whose inner index is 0 the body zeroes the output block, writes the routing block
  (the token tile against the router matrix, clamped at zero) and adds the first partial product; at
  every other point it adds the point's partial product to what the output block already holds and leaves the
  routing block alone. The routing block is therefore carried through fifteen points; the last of them
  writes it back, and what it writes is what the first of the sixteen left.
-/
import proofs.«124868_j4260607558028_2_alg».proof.Proof.KernelBodyData
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule in closed form -/

/-- The body's branch is taken exactly at the points of inner index 0. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The routing block is stored into exactly at inner index 0. -/
theorem idle6_iff : ∀ t : Fin cfg0.N, cfg0.idle 6 (grid0.coords t) = true ↔ ¬t.val % 16 = 0 :=
  (by decide +kernel : ∀ t : Fin grid0.N, idle0 6 (grid0.coords t) = true ↔ ¬t.val % 16 = 0)

/-- The routing block's buffer holds nothing the body stored exactly when a token tile begins. -/
theorem fresh6 : ∀ n, n ≤ cfg0.N → cfg0.fresh 6 n = decide (n % 16 = 0) :=
  Pipeline.Cfg.fresh_tab cfg0 6 (fun n => decide (n % 16 = 0)) (by decide)
    (by decide +kernel : ∀ t : Fin grid0.N,
      decide ((t.val + 1) % 16 = 0) = (win0_6.flush t || (idle0 6 (grid0.coords t) && decide (t.val % 16 = 0))))

/-- Each window's current staging memref at point `t`, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)

theorem hz2 : (![0, 0] : Fin 2 → Nat) = fun _ => 0 := by
  funext a; fin_cases a <;> rfl

/-! ## The body's two cases -/

set_option maxHeartbeats 1000000 in
/-- Inner index 0: from the five input blocks, whatever the two output blocks held, the body leaves the output
    block at the first partial product over zero and the routing block at the clamped router product. -/
theorem runFirst (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S64x2048 .bf16) (harg6 : arg6.IsWhole) (arg7 : Memref sig .tc .vmem S512x2048 .f32) (harg7 : arg7.IsWhole) (arg8 : Memref sig .tc .vmem S512x64 .f32) (harg8 : arg8.IsWhole) (hc0 : k0_cond1 i = 1#1)
    (x0 : Vec F S512x2048 .bf16) (x1 : Vec F S512x2048 .bf16) (x2 : Vec F S512x2048 .bf16) (x3 : Vec F S2048x512 .bf16) (x4 : Vec F S64x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 x2 x3 (k0_pay1 (F := F))) ∗ owns (c : Thread nD τ) arg8 fullShare (k0_pay2 x0 x4)) -∗ K ⟨⟩))
          ⊢ wp frame (wpE (defs₀ (F := F)) Variants.none c none) E (cc0__ffn_kernel i arg2 harg2 arg3 harg3 arg4 harg4 arg5 harg5 arg6 harg6 arg7 harg7 arg8 harg8) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_eq_canon _ _ _ (fun y => ⟨_, List.mem_cons.mpr (Or.inl rfl), View.mem_set_unit_zero hz2 Facts₀.inb_S512x2048_S512x2048_0_0 y⟩),
        View.canon_cons_unit_zero hz2]
      sl_unfold_words
      simp only [View.readAt_eq_ld, harg2.read_unread, harg3.read_unread, harg4.read_unread, harg5.read_unread,
        View.ld_unit_zero (S := S512x2048) hz2, View.ld_unit_zero (S := S2048x512) hz2,
        View.readCov_unit_zero (S := S512x2048) _ hz2]
    iexists _; isplitr; swap; · iexact H6
    ipureintro
    rw [View.read_writes_eq_canon _ _ _ (fun y => ⟨_, List.mem_cons.mpr (Or.inl rfl), View.mem_set_unit_zero hz2 Facts₀.inb_S512x64_S512x64_0_0 y⟩),
      View.canon_unit_zero hz2]
    simp only [View.readAt_eq_ld, harg2.read_unread, harg6.read_unread,
      View.ld_unit_zero (S := S512x2048) hz2, View.ld_unit_zero (S := S64x2048) hz2]

set_option maxHeartbeats 1000000 in
/-- Any other inner index: the body adds the point's partial product to what the output block holds, and does
    not touch the routing block. -/
theorem runLater (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S64x2048 .bf16) (harg6 : arg6.IsWhole) (arg7 : Memref sig .tc .vmem S512x2048 .f32) (harg7 : arg7.IsWhole) (arg8 : Memref sig .tc .vmem S512x64 .f32) (harg8 : arg8.IsWhole) (hc0 : ¬k0_cond1 i = 1#1)
    (x0 : Vec F S512x2048 .bf16) (x1 : Vec F S512x2048 .bf16) (x2 : Vec F S512x2048 .bf16) (x3 : Vec F S2048x512 .bf16) (x4 : Vec F S64x2048 .bf16) (y5 : Vec F S512x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 x2 x3 y5)) -∗ K ⟨⟩))
          ⊢ wp frame (wpE (defs₀ (F := F)) Variants.none c none) E (cc0__ffn_kernel i arg2 harg2 arg3 harg3 arg4 harg4 arg5 harg5 arg6 harg6 arg7 harg7 arg8 harg8) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    rw [View.read_writes_eq_canon _ _ _ (fun y => ⟨_, List.mem_cons.mpr (Or.inl rfl), View.mem_set_unit_zero hz2 Facts₀.inb_S512x2048_S512x2048_0_0 y⟩),
      View.canon_unit_zero hz2]
    simp only [View.readAt_eq_ld, harg2.read_unread, harg3.read_unread, harg4.read_unread, harg5.read_unread, harg7.read_unread,
      View.ld_unit_zero (S := S512x2048) hz2, View.ld_unit_zero (S := S2048x512) hz2]

/-! ## What each buffer holds when the body runs -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past inner index 0 the output block holds what the point before left: it is written back only after inner
    index 15. -/
theorem before0_5_later (c : Dev nD) (t : Fin cfg0.N) (h0 : ¬t.val % 16 = 0) (d) :
    (dats m 0 c).before 5 t d = acc m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-- Past inner index 0 the routing block holds what the point before holds of it: stored at inner index 0,
    carried since. -/
theorem before0_6_later (c : Dev nD) (t : Fin cfg0.N) (h0 : ¬t.val % 16 = 0) (d) :
    (dats m 0 c).before 6 t d = routeAt m c (t.val - 1) (Nat.lt_of_le_of_lt (Nat.sub_le _ _) t.isLt) := by
  have hN : t.val < 256 := lt_of_lt_of_eq t.isLt (show cfg0.N = 256 from N_0)
  rw [Pipeline.Dat.before_out_traj (dats m 0 c) 6 rfl (fun _ _ => rfl)
    (fun t' ht' hi _ => by
      rw [after0_6, after0_6]
      exact routeAt_later m c t' ((idle6_iff t').mp hi)) t.val t rfl d,
    fresh6 t.val (le_of_lt t.isLt), if_neg (by simpa using h0), after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by the point's inner index: 0, the last, or one in between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 256 := lt_of_lt_of_eq t.isLt (show cfg0.N = 256 from N_0)
  rw [show (dats m 0 c).leavesExact 0 t = owns (c : Thread nD τ) (ms0_0 t) fullShare ((dats m 0 c).after 0 t) from by
      unfold Dat.leavesExact; rw [live0 t], after0_0]
  rw [show (dats m 0 c).leavesExact 1 t = owns (c : Thread nD τ) (ms0_1 t) fullShare ((dats m 0 c).after 1 t) from by
      unfold Dat.leavesExact; rw [live1 t], after0_1]
  rw [show (dats m 0 c).leavesExact 2 t = owns (c : Thread nD τ) (ms0_2 t) fullShare ((dats m 0 c).after 2 t) from by
      unfold Dat.leavesExact; rw [live2 t], after0_2]
  rw [show (dats m 0 c).leavesExact 3 t = owns (c : Thread nD τ) (ms0_3 t) fullShare ((dats m 0 c).after 3 t) from by
      unfold Dat.leavesExact; rw [live3 t], after0_3]
  rw [show (dats m 0 c).leavesExact 4 t = owns (c : Thread nD τ) (ms0_4 t) fullShare ((dats m 0 c).after 4 t) from by
      unfold Dat.leavesExact; rw [live4 t], after0_4]
  rw [show (dats m 0 c).leavesExact 5 t = owns (c : Thread nD τ) (ms0_5 t) fullShare ((dats m 0 c).after 5 t) from by
      unfold Dat.leavesExact; rw [live5 t], after0_5]
  by_cases h0 : t.val % 16 = 0
  · rw [show (dats m 0 c).leavesExact 6 t = owns (c : Thread nD τ) (ms0_6 t) fullShare ((dats m 0 c).after 6 t) from by
        unfold Dat.leavesExact
        rw [show cfg0.idle 6 (grid0.coords t) = false from by
          cases hi : cfg0.idle 6 (grid0.coords t)
          · rfl
          · exact absurd h0 ((idle6_iff t).mp hi)], after0_6, acc_first m c t h0, routeAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((first_iff t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi : cfg0.idle 6 (grid0.coords t) = true := (idle6_iff t).mpr h0
    simp only [before0_5_later m c t h0]
    rw [acc_later m c t h0]
    by_cases h15 : t.val % 16 = 15
    · rw [show (dats m 0 c).leavesExact 6 t = owns (c : Thread nD τ) (ms0_6 t) fullShare ((dats m 0 c).after 6 t) from by
          unfold Dat.leavesExact; rw [hi, (flush0_6 t).mpr h15], after0_6, routeAt_later m c t h0]
      simp only [before0_6_later m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLater c (grid0.coords t) _ _ _ _ _ _ _ _ _ _ _ _ _ _ (fun h => h0 ((first_iff t).mp h)) (iblk m c 0 t) (iblk m c 1 t) (iblk m c 2 t) (iblk m c 3 t) (iblk m c 4 t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [(dats m 0 c).leavesExact_idle 6 t hi (Bool.eq_false_iff.mpr fun h => h15 ((flush0_6 t).mp h))]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLater c (grid0.coords t) _ _ _ _ _ _ _ _ _ _ _ _ _ _ (fun h => h0 ((first_iff t).mp h)) (iblk m c 0 t) (iblk m c 1 t) (iblk m c 2 t) (iblk m c 3 t) (iblk m c 4 t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; each array the call stages ends at what the
    write-backs of the stated contents make of it, and every other buffer, the two reshaped results included,
    at what the operations after the call compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyData.lean ====
/-
  The contents the kernel's two output blocks hold after each grid point.

  The grid is 16 token tiles (outer) by 16 tiles of the intermediate axis (inner); point `n` is tile pair
  `(n / 16, n % 16)`. The output block of a token tile is resident across the inner axis: at inner index 0 it
  is zeroed and the first partial product added, at every later inner index the partial product of that
  tile of the intermediate axis is added to what the point before left (`acc`). The routing block is written
  at inner index 0 only and carried unchanged through the other fifteen points (`routeAt`), the last of which
  writes it back.
-/
import proofs.«124868_j4260607558028_2_alg».proof.Proof.Gen.KernelIdeal.Frame
import proofs.«124868_j4260607558028_2_alg».proof.Proof.Gen.KernelIdeal.Skeleton
import Idealize.ShloMosaic.Lib.Pipeline.TableIdle

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The partial product a point adds: the gated product of the token tile's two projections onto one tile of
    the intermediate axis, contracted with that tile of the down projection, added to `y`. -/
abbrev step (c : Dev nD) (t : Fin cfg0.N) (y : Vec F S512x2048 .f32) : Vec F S512x2048 .f32 :=
  k0_pay3 (iblk m c 0 t) (iblk m c 1 t) (iblk m c 2 t) (iblk m c 3 t) y

/-- What the output block holds after point `n`: at inner index 0 the first partial product over zero, later
    the point's partial product over what the point before left. -/
def acc (c : Dev nD) : (n : ℕ) → n < cfg0.N → Vec F S512x2048 .f32
  | 0, hn => step m c ⟨0, hn⟩ (k0_pay1 (F := F))
  | n + 1, hn =>
    if (n + 1) % 16 = 0 then step m c ⟨n + 1, hn⟩ (k0_pay1 (F := F))
    else step m c ⟨n + 1, hn⟩ (acc c n (Nat.lt_of_succ_lt hn))

/-- What the routing block holds after point `n`: written at inner index 0, carried afterwards. -/
def routeAt (c : Dev nD) : (n : ℕ) → n < cfg0.N → Vec F S512x64 .f32
  | 0, hn => k0_pay2 (iblk m c 0 ⟨0, hn⟩) (iblk m c 4 ⟨0, hn⟩)
  | n + 1, hn =>
    if (n + 1) % 16 = 0 then k0_pay2 (iblk m c 0 ⟨n + 1, hn⟩) (iblk m c 4 ⟨n + 1, hn⟩)
    else routeAt c n (Nat.lt_of_succ_lt hn)

theorem acc_first (c : Dev nD) (t : Fin cfg0.N) (h0 : t.val % 16 = 0) :
    acc m c t.val t.isLt = step m c t (k0_pay1 (F := F)) := by
  obtain ⟨n, hn⟩ := t
  cases n with
  | zero => rfl
  | succ n => exact (if_pos h0).trans rfl

theorem acc_later (c : Dev nD) (t : Fin cfg0.N) (h0 : ¬t.val % 16 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h0
  | succ n => exact (if_neg h0).trans rfl

theorem routeAt_first (c : Dev nD) (t : Fin cfg0.N) (h0 : t.val % 16 = 0) :
    routeAt m c t.val t.isLt = k0_pay2 (iblk m c 0 t) (iblk m c 4 t) := by
  obtain ⟨n, hn⟩ := t
  cases n with
  | zero => rfl
  | succ n => exact (if_pos h0).trans rfl

theorem routeAt_later (c : Dev nD) (t : Fin cfg0.N) (h0 : ¬t.val % 16 = 0) :
    routeAt m c t.val t.isLt = routeAt m c (t.val - 1) (Nat.lt_of_le_of_lt (Nat.sub_le _ _) t.isLt) := by
  obtain ⟨n, hn⟩ := t
  cases n with
  | zero => exact absurd (Nat.zero_mod _) h0
  | succ n => exact (if_neg h0).trans rfl

/-- The pipeline's proof data on core `c`: the arrays as the region finds them; each input's buffer at its
    block; the two outputs' at `acc` and `routeAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
    | ⟨6, _⟩ => routeAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = acc m c t.val t.isLt := by dsimp only [dats]
theorem after0_6 (c : Dev nD) (t : Fin cfg0.N) : (dats m 0 c).after 6 t = routeAt m c t.val t.isLt := by dsimp only [dats]

end Cert.KernelIdeal.Body

end
-- ==== Proof.Body.lean ====
/-
  The kernel body at one grid point, as a specification over the staged blocks, and the run of the whole
  pipelined call built from it.

  At a point whose inner index is 0 the body zeroes the output block, writes the routing block
  (the token tile against the router matrix, clamped at zero) and adds the first partial product; at
  every other point it adds the point's partial product to what the output block already holds and leaves the
  routing block alone. The routing block is therefore carried through fifteen points; the last of them
  writes it back, and what it writes is what the first of the sixteen left.
-/
import proofs.«124868_j4260607558028_2_alg».proof.Proof.BodyData
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule in closed form -/

/-- The body's branch is taken exactly at the points of inner index 0. -/
theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The routing block is stored into exactly at inner index 0. -/
theorem idle6_iff : ∀ t : Fin cfg0.N, cfg0.idle 6 (grid0.coords t) = true ↔ ¬t.val % 16 = 0 :=
  (by decide +kernel : ∀ t : Fin grid0.N, idle0 6 (grid0.coords t) = true ↔ ¬t.val % 16 = 0)

/-- The routing block's buffer holds nothing the body stored exactly when a token tile begins. -/
theorem fresh6 : ∀ n, n ≤ cfg0.N → cfg0.fresh 6 n = decide (n % 16 = 0) :=
  Pipeline.Cfg.fresh_tab cfg0 6 (fun n => decide (n % 16 = 0)) (by decide)
    (by decide +kernel : ∀ t : Fin grid0.N,
      decide ((t.val + 1) % 16 = 0) = (win0_6.flush t || (idle0 6 (grid0.coords t) && decide (t.val % 16 = 0))))

/-- Each window's current staging memref at point `t`, and its wholeness. -/
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)

theorem hz2 : (![0, 0] : Fin 2 → Nat) = fun _ => 0 := by
  funext a; fin_cases a <;> rfl

/-! ## The body's two cases -/

set_option maxHeartbeats 1000000 in
/-- Inner index 0: from the five input blocks, whatever the two output blocks held, the body leaves the output
    block at the first partial product over zero and the routing block at the clamped router product. -/
theorem runFirst (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S64x2048 .bf16) (harg6 : arg6.IsWhole) (arg7 : Memref sig .tc .vmem S512x2048 .f32) (harg7 : arg7.IsWhole) (arg8 : Memref sig .tc .vmem S512x64 .f32) (harg8 : arg8.IsWhole) (hc0 : k0_cond1 i = 1#1)
    (x0 : Vec F S512x2048 .bf16) (x1 : Vec F S512x2048 .bf16) (x2 : Vec F S512x2048 .bf16) (x3 : Vec F S2048x512 .bf16) (x4 : Vec F S64x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 x2 x3 (k0_pay1 (F := F))) ∗ owns (c : Thread nD τ) arg8 fullShare (k0_pay2 x0 x4)) -∗ K ⟨⟩))
          ⊢ wp frame (wpE (defs₀ (F := F)) Variants.none c none) E (cc0__ffn_kernel i arg2 harg2 arg3 harg3 arg4 harg4 arg5 harg5 arg6 harg6 arg7 harg7 arg8 harg8) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_eq_canon _ _ _ (fun y => ⟨_, List.mem_cons.mpr (Or.inl rfl), View.mem_set_unit_zero hz2 Facts₀.inb_S512x2048_S512x2048_0_0 y⟩),
        View.canon_cons_unit_zero hz2]
      sl_unfold_words
      simp only [View.readAt_eq_ld, harg2.read_unread, harg3.read_unread, harg4.read_unread, harg5.read_unread,
        View.ld_unit_zero (S := S512x2048) hz2, View.ld_unit_zero (S := S2048x512) hz2,
        View.readCov_unit_zero (S := S512x2048) _ hz2]
    iexists _; isplitr; swap; · iexact H6
    ipureintro
    rw [View.read_writes_eq_canon _ _ _ (fun y => ⟨_, List.mem_cons.mpr (Or.inl rfl), View.mem_set_unit_zero hz2 Facts₀.inb_S512x64_S512x64_0_0 y⟩),
      View.canon_unit_zero hz2]
    simp only [View.readAt_eq_ld, harg2.read_unread, harg6.read_unread,
      View.ld_unit_zero (S := S512x2048) hz2, View.ld_unit_zero (S := S64x2048) hz2]

set_option maxHeartbeats 1000000 in
/-- Any other inner index: the body adds the point's partial product to what the output block holds, and does
    not touch the routing block. -/
theorem runLater (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S64x2048 .bf16) (harg6 : arg6.IsWhole) (arg7 : Memref sig .tc .vmem S512x2048 .f32) (harg7 : arg7.IsWhole) (arg8 : Memref sig .tc .vmem S512x64 .f32) (harg8 : arg8.IsWhole) (hc0 : ¬k0_cond1 i = 1#1)
    (x0 : Vec F S512x2048 .bf16) (x1 : Vec F S512x2048 .bf16) (x2 : Vec F S512x2048 .bf16) (x3 : Vec F S2048x512 .bf16) (x4 : Vec F S64x2048 .bf16) (y5 : Vec F S512x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 x0 x1 x2 x3 y5)) -∗ K ⟨⟩))
          ⊢ wp frame (wpE (defs₀ (F := F)) Variants.none c none) E (cc0__ffn_kernel i arg2 harg2 arg3 harg3 arg4 harg4 arg5 harg5 arg6 harg6 arg7 harg7 arg8 harg8) K := by
    intro E K
    simp only [cc0__ffn_kernel_eq_skeleton]; unfold cc0__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact H5
    ipureintro
    rw [View.read_writes_eq_canon _ _ _ (fun y => ⟨_, List.mem_cons.mpr (Or.inl rfl), View.mem_set_unit_zero hz2 Facts₀.inb_S512x2048_S512x2048_0_0 y⟩),
      View.canon_unit_zero hz2]
    simp only [View.readAt_eq_ld, harg2.read_unread, harg3.read_unread, harg4.read_unread, harg5.read_unread, harg7.read_unread,
      View.ld_unit_zero (S := S512x2048) hz2, View.ld_unit_zero (S := S2048x512) hz2]

/-! ## What each buffer holds when the body runs -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Past inner index 0 the output block holds what the point before left: it is written back only after inner
    index 15. -/
theorem before0_5_later (c : Dev nD) (t : Fin cfg0.N) (h0 : ¬t.val % 16 = 0) (d) :
    (dats m 0 c).before 5 t d = acc m c (t.val - 1) (Nat.lt_of_le_of_lt (Nat.sub_le _ _) t.isLt) := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-- Past inner index 0 the routing block holds what the point before holds of it: stored at inner index 0,
    carried since. -/
theorem before0_6_later (c : Dev nD) (t : Fin cfg0.N) (h0 : ¬t.val % 16 = 0) (d) :
    (dats m 0 c).before 6 t d = routeAt m c (t.val - 1) (Nat.lt_of_le_of_lt (Nat.sub_le _ _) t.isLt) := by
  have hN : t.val < 256 := lt_of_lt_of_eq t.isLt (show cfg0.N = 256 from N_0)
  rw [Pipeline.Dat.before_out_traj (dats m 0 c) 6 rfl (fun _ _ => rfl)
    (fun t' ht' hi _ => by
      rw [after0_6, after0_6]
      exact routeAt_later m c t' ((idle6_iff t').mp hi)) t.val t rfl d,
    fresh6 t.val (le_of_lt t.isLt), if_neg (by simpa using h0), after0_6]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by the point's inner index: 0, the last, or one in between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 256 := lt_of_lt_of_eq t.isLt (show cfg0.N = 256 from N_0)
  rw [show (dats m 0 c).leavesExact 0 t = owns (c : Thread nD τ) (ms0_0 t) fullShare ((dats m 0 c).after 0 t) from by
      unfold Dat.leavesExact; rw [live0 t], after0_0]
  rw [show (dats m 0 c).leavesExact 1 t = owns (c : Thread nD τ) (ms0_1 t) fullShare ((dats m 0 c).after 1 t) from by
      unfold Dat.leavesExact; rw [live1 t], after0_1]
  rw [show (dats m 0 c).leavesExact 2 t = owns (c : Thread nD τ) (ms0_2 t) fullShare ((dats m 0 c).after 2 t) from by
      unfold Dat.leavesExact; rw [live2 t], after0_2]
  rw [show (dats m 0 c).leavesExact 3 t = owns (c : Thread nD τ) (ms0_3 t) fullShare ((dats m 0 c).after 3 t) from by
      unfold Dat.leavesExact; rw [live3 t], after0_3]
  rw [show (dats m 0 c).leavesExact 4 t = owns (c : Thread nD τ) (ms0_4 t) fullShare ((dats m 0 c).after 4 t) from by
      unfold Dat.leavesExact; rw [live4 t], after0_4]
  rw [show (dats m 0 c).leavesExact 5 t = owns (c : Thread nD τ) (ms0_5 t) fullShare ((dats m 0 c).after 5 t) from by
      unfold Dat.leavesExact; rw [live5 t], after0_5]
  by_cases h0 : t.val % 16 = 0
  · rw [show (dats m 0 c).leavesExact 6 t = owns (c : Thread nD τ) (ms0_6 t) fullShare ((dats m 0 c).after 6 t) from by
        unfold Dat.leavesExact
        rw [show cfg0.idle 6 (grid0.coords t) = false from by
          cases hi : cfg0.idle 6 (grid0.coords t)
          · rfl
          · exact absurd h0 ((idle6_iff t).mp hi)], after0_6, acc_first m c t h0, routeAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t) _ _ _ _ _ _ _ _ _ _ _ _ _ _ ((first_iff t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hi : cfg0.idle 6 (grid0.coords t) = true := (idle6_iff t).mpr h0
    simp only [before0_5_later m c t h0]
    rw [acc_later m c t h0]
    by_cases h15 : t.val % 16 = 15
    · rw [show (dats m 0 c).leavesExact 6 t = owns (c : Thread nD τ) (ms0_6 t) fullShare ((dats m 0 c).after 6 t) from by
          unfold Dat.leavesExact; rw [hi, (flush0_6 t).mpr h15], after0_6, routeAt_later m c t h0]
      simp only [before0_6_later m c t h0]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLater c (grid0.coords t) _ _ _ _ _ _ _ _ _ _ _ _ _ _ (fun h => h0 ((first_iff t).mp h)) (iblk m c 0 t) (iblk m c 1 t) (iblk m c 2 t) (iblk m c 3 t) (iblk m c 4 t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [(dats m 0 c).leavesExact_idle 6 t hi (Bool.eq_false_iff.mpr fun h => h15 ((flush0_6 t).mp h))]
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((runLater c (grid0.coords t) _ _ _ _ _ _ _ _ _ _ _ _ _ _ (fun h => h0 ((first_iff t).mp h)) (iblk m c 0 t) (iblk m c 1 t) (iblk m c 2 t) (iblk m c 3 t) (iblk m c 4 t) _) Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; each array the call stages ends at what the
    write-backs of the stated contents make of it, and every other buffer, the two reshaped results included,
    at what the operations after the call compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.PayAt.lean ====
/-
  The three values the kernel body stores, read at one index over the extended reals.
-/
import proofs.«124868_j4260607558028_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.PayAt

open Idealize.ShloMosaic Idealize.ShloMosaic.ValueIdx Idealize.SL.Sem
open Cert.KernelIdeal Cert.KernelIdeal.Gen

/-- Row `p` of `x` against row `k` of `w`, contracted over their shared axis of length 2048. -/
def rowDot {A B : Nat} (x : (⟨2, ![A, 2048]⟩ : Shape).Idx → EReal) (w : (⟨2, ![B, 2048]⟩ : Shape).Idx → EReal)
    (p : Fin A) (k : Fin B) : EReal :=
  ∑ h : Fin 2048, x (ix2 p h) * w (ix2 k h)

/-- The gated unit: `g · σ(g) · u`. -/
def gated (g u : EReal) : EReal := g * Ideal.logistic g * u

/-! ### The product of a `[512, 2048]` vector with the transpose of a `[64, 2048]` one, at an index -/

private theorem lhsA_0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl
private theorem lhsA_1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q
private theorem rhsA_0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl
private theorem rhsA_1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q

/-- Into a zero accumulator the product at `(p, e)` is the sum over the shared axis of row `p` times row `e`. -/
private theorem mmA_at (a : FVec Ideal S512x2048 .bf16) (b : FVec Ideal S64x2048 .bf16) (p : Fin 512) (e : Fin 64) :
    matmul (F := Ideal) dot_S512x2048_S64x2048_S512x64_1_1_0_0_n_n none a b (constant (F := Ideal) S512x64 .f32 0x00000000#32) (ix2 p e)
      = ∑ k : Fin 2048, a (ix2 p k) * b (ix2 e k) := by
  refine (Ideal.matmul_constant_zero_apply dot_S512x2048_S64x2048_S512x64_1_1_0_0_n_n none a b (ix2 p e)).trans ?_
  rw [← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 p e) ((contrEquiv1 dot_S512x2048_S64x2048_S512x64_1_1_0_0_n_n 2048 rfl rfl).symm k) = ix2 p k := funext fun c => Fin.ext (by
    match c with
    | ⟨0, _⟩ => exact lhsA_0 _ _
    | ⟨1, _⟩ => exact (lhsA_1 _ _).trans hk)
  have er : dot_S512x2048_S64x2048_S512x64_1_1_0_0_n_n.rhsIdx (ix2 p e) ((contrEquiv1 dot_S512x2048_S64x2048_S512x64_1_1_0_0_n_n 2048 rfl rfl).symm k) = ix2 e k := funext fun c => Fin.ext (by
    match c with
    | ⟨0, _⟩ => exact rhsA_0 _ _
    | ⟨1, _⟩ => exact (rhsA_1 _ _).trans hk)
  rw [el, er]

/-! ### The product of a `[512, 2048]` vector with the transpose of a `[512, 2048]` one, at an index -/

private theorem lhsB_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
private theorem lhsB_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
private theorem rhsB_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
private theorem rhsB_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- Into a zero accumulator the product at `(p, e)` is the sum over the shared axis of row `p` times row `e`. -/
private theorem mmB_at (a : FVec Ideal S512x2048 .bf16) (b : FVec Ideal S512x2048 .bf16) (p : Fin 512) (e : Fin 512) :
    matmul (F := Ideal) dot_S512x2048_S512x2048_S512x512_1_1_0_0_n_n none a b (constant (F := Ideal) S512x512 .f32 0x00000000#32) (ix2 p e)
      = ∑ k : Fin 2048, a (ix2 p k) * b (ix2 e k) := by
  refine (Ideal.matmul_constant_zero_apply dot_S512x2048_S512x2048_S512x512_1_1_0_0_n_n none a b (ix2 p e)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p e) ((contrEquiv1 dot_S512x2048_S512x2048_S512x512_1_1_0_0_n_n 2048 rfl rfl).symm k) = ix2 p k := funext fun c => Fin.ext (by
    match c with
    | ⟨0, _⟩ => exact lhsB_0 _ _
    | ⟨1, _⟩ => exact (lhsB_1 _ _).trans hk)
  have er : dot_S512x2048_S512x2048_S512x512_1_1_0_0_n_n.rhsIdx (ix2 p e) ((contrEquiv1 dot_S512x2048_S512x2048_S512x512_1_1_0_0_n_n 2048 rfl rfl).symm k) = ix2 e k := funext fun c => Fin.ext (by
    match c with
    | ⟨0, _⟩ => exact rhsB_0 _ _
    | ⟨1, _⟩ => exact (rhsB_1 _ _).trans hk)
  rw [el, er]

/-! ### The product of a `[512, 512]` vector with the transpose of a `[2048, 512]` one, at an index -/

private theorem lhsC_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
private theorem lhsC_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
private theorem rhsC_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
private theorem rhsC_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Into a zero accumulator the product at `(p, e)` is the sum over the shared axis of row `p` times row `e`. -/
private theorem mmC_at (a : FVec Ideal S512x512 .bf16) (b : FVec Ideal S2048x512 .bf16) (p : Fin 512) (e : Fin 2048) :
    matmul (F := Ideal) dot_S512x512_S2048x512_S512x2048_1_1_0_0_n_n none a b (constant (F := Ideal) S512x2048 .f32 0x00000000#32) (ix2 p e)
      = ∑ k : Fin 512, a (ix2 p k) * b (ix2 e k) := by
  refine (Ideal.matmul_constant_zero_apply dot_S512x512_S2048x512_S512x2048_1_1_0_0_n_n none a b (ix2 p e)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p e) ((contrEquiv1 dot_S512x512_S2048x512_S512x2048_1_1_0_0_n_n 512 rfl rfl).symm k) = ix2 p k := funext fun c => Fin.ext (by
    match c with
    | ⟨0, _⟩ => exact lhsC_0 _ _
    | ⟨1, _⟩ => exact (lhsC_1 _ _).trans hk)
  have er : dot_S512x512_S2048x512_S512x2048_1_1_0_0_n_n.rhsIdx (ix2 p e) ((contrEquiv1 dot_S512x512_S2048x512_S512x2048_1_1_0_0_n_n 512 rfl rfl).symm k) = ix2 e k := funext fun c => Fin.ext (by
    match c with
    | ⟨0, _⟩ => exact rhsC_0 _ _
    | ⟨1, _⟩ => exact (rhsC_1 _ _).trans hk)
  rw [el, er]

theorem pay1_at (j : S512x2048.Idx) : (k0_pay1 (F := Ideal) : S512x2048.Idx → EReal) j = 0 := by
  unfold k0_pay1
  exact Ideal.ofBits_zero_f32

theorem pay2_at (x0 : Vec Ideal S512x2048 .bf16) (x4 : Vec Ideal S64x2048 .bf16) (p : Fin 512) (e : Fin 64) :
    (k0_pay2 x0 x4 : S512x64.Idx → EReal) (ix2 p e) = max (rowDot x0 x4 p e) 0 := by
  unfold k0_pay2
  rw [shapeCast_self x0 shapeCasts_S512x2048_S512x2048, shapeCast_self x4 shapeCasts_S64x2048_S64x2048]
  refine (maximumf_apply _ _ (ix2 p e)).trans ?_
  exact congrArg₂ max (mmA_at x0 x4 p e) Ideal.ofBits_zero_f32

theorem pay3_at (x0 x1 x2 : Vec Ideal S512x2048 .bf16) (x3 : Vec Ideal S2048x512 .bf16) (y : Vec Ideal S512x2048 .f32)
    (p : Fin 512) (h : Fin 2048) :
    (k0_pay3 x0 x1 x2 x3 y : S512x2048.Idx → EReal) (ix2 p h)
      = (y : S512x2048.Idx → EReal) (ix2 p h)
        + ∑ k : Fin 512, gated (rowDot x0 x1 p k) (rowDot x0 x2 p k) * (x3 : S2048x512.Idx → EReal) (ix2 h k) := by
  unfold k0_pay3
  rw [shapeCast_self x0 shapeCasts_S512x2048_S512x2048, shapeCast_self x1 shapeCasts_S512x2048_S512x2048,
    shapeCast_self x2 shapeCasts_S512x2048_S512x2048, shapeCast_self x3 shapeCasts_S2048x512_S2048x512,
    shapeCast_self y shapeCasts_S512x2048_S512x2048]
  refine (addf_apply _ _ (ix2 p h)).trans ?_
  refine congrArg (y (ix2 p h) + ·) ?_
  refine (mmC_at _ x3 p h).trans ?_
  refine Finset.sum_congr rfl fun k _ => ?_
  refine congrArg (· * x3 (ix2 h k)) ?_
  -- the format change is the identity; the two products and the logistic read lane by lane
  show matmul (F := Ideal) dot_S512x2048_S512x2048_S512x512_1_1_0_0_n_n none x0 x1 (constant (F := Ideal) S512x512 .f32 0x00000000#32) (ix2 p k)
      * Ideal.logistic (matmul (F := Ideal) dot_S512x2048_S512x2048_S512x512_1_1_0_0_n_n none x0 x1 (constant (F := Ideal) S512x512 .f32 0x00000000#32) (ix2 p k))
      * matmul (F := Ideal) dot_S512x2048_S512x2048_S512x512_1_1_0_0_n_n none x0 x2 (constant (F := Ideal) S512x512 .f32 0x00000000#32) (ix2 p k)
    = gated (rowDot x0 x1 p k) (rowDot x0 x2 p k)
  rw [mmB_at x0 x1 p k, mmB_at x0 x2 p k]
  rfl

end Cert.KernelIdeal.PayAt

end
-- ==== Proof.Blocks.lean ====
/-
  Each staged block of the kernel, read at one index, is an entry of one of the five argument arrays: the
  token tile `t / 16` of the hidden states (flattened over batch and sequence), the tile `t % 16` of the
  intermediate axis of the gate, up and down projections, and the whole router matrix. The casts to the
  narrower float format before the region are the identity over the extended reals.
-/
import proofs.«124868_j4260607558028_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The windows' index maps over the grid

Point `t` of the 16 x 16 grid has coordinates `(t / 16, t % 16)`; each window's block index is one of them or zero. -/

private theorem idx0 : ∀ t : Fin cfg0.N, win0_0.index t (0 : Fin 2) = t.val / 16 ∧ win0_0.index t (1 : Fin 2) = 0 :=
  (by decide +kernel : ∀ t : Fin grid0.N, _)
private theorem idx1 : ∀ t : Fin cfg0.N, win0_1.index t (0 : Fin 2) = t.val % 16 ∧ win0_1.index t (1 : Fin 2) = 0 :=
  (by decide +kernel : ∀ t : Fin grid0.N, _)
private theorem idx2 : ∀ t : Fin cfg0.N, win0_2.index t (0 : Fin 2) = t.val % 16 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = t.val % 16 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)

/-! ## The arrays the region finds

Each is written once before the region: the hidden states flattened to rows and cast, the four matrices cast. Over the
extended reals the cast returns its operand. -/

/-- The flattened hidden states: the cast of the reshape of the first argument. -/
private theorem V_main_v1 (c : Dev nD) :
    (V m c main_v1 : S8192x2048.Idx → EReal)
      = (truncf .bf16 (shapeCast S8192x2048 (m ((c.tc : Thread nD τ).loc main_arg0) : FVec Ideal S4x2048x2048 .f32)
          shapeCasts_S4x2048x2048_S8192x2048) bitsLt_bf16_f32 : FVec Ideal S8192x2048 .bf16) := by
  show StableHlo.after hostOps0 (fun b => m (c, b)) (Proc.devRef .tc main_v1) = _
  after_results
  rfl
private theorem V_main_v2 (c : Dev nD) :
    (V m c main_v2 : S8192x2048.Idx → EReal) = (m ((c.tc : Thread nD τ).loc main_arg2) : S8192x2048.Idx → EReal) := by
  show StableHlo.after hostOps0 (fun b => m (c, b)) (Proc.devRef .tc main_v2) = _
  after_results
  rfl
private theorem V_main_v3 (c : Dev nD) :
    (V m c main_v3 : S8192x2048.Idx → EReal) = (m ((c.tc : Thread nD τ).loc main_arg3) : S8192x2048.Idx → EReal) := by
  show StableHlo.after hostOps0 (fun b => m (c, b)) (Proc.devRef .tc main_v3) = _
  after_results
  rfl
private theorem V_main_v4 (c : Dev nD) :
    (V m c main_v4 : S2048x8192.Idx → EReal) = (m ((c.tc : Thread nD τ).loc main_arg4) : S2048x8192.Idx → EReal) := by
  show StableHlo.after hostOps0 (fun b => m (c, b)) (Proc.devRef .tc main_v4) = _
  after_results
  rfl
private theorem V_main_v5 (c : Dev nD) :
    (V m c main_v5 : S64x2048.Idx → EReal) = (m ((c.tc : Thread nD τ).loc main_arg1) : S64x2048.Idx → EReal) := by
  show StableHlo.after hostOps0 (fun b => m (c, b)) (Proc.devRef .tc main_v5) = _
  after_results
  rfl

/-- Row `r` of the flattened hidden states is batch `b`, position `s` when `r = 2048 b + s`: the two indices have the
    same row-major position. -/
private theorem V_main_v1_at (c : Dev nD) (r : Fin 8192) (h : Fin 2048) (b : Fin 4) (s : Fin 2048)
    (hr : 2048 * b.val + s.val = r.val) :
    (V m c main_v1 : S8192x2048.Idx → EReal) (ix2 r h)
      = (m ((c.tc : Thread nD τ).loc main_arg0) : S4x2048x2048.Idx → EReal) (ix3 b s h) := by
  rw [V_main_v1, truncf_apply]
  refine shapeCast_apply _ _ (ix2 r h) (ix3 b s h) ?_
  rw [Shape.rowMajor_val_two, Shape.rowMajor_val_three]
  show (b.val * 2048 + s.val) * 2048 + h.val = r.val * 2048 + h.val
  omega

/-! ## Each block at one index -/

theorem blk0_at (c : Dev nD) (t : Fin cfg0.N) (p : Fin 512) (h : Fin 2048) (b : Fin 4) (s : Fin 2048)
    (hr : 2048 * b.val + s.val = 512 * (t.val / 16) + p.val) :
    (iblk m c 0 t : S512x2048.Idx → EReal) (ix2 p h)
      = (m ((c.tc : Thread nD τ).loc main_arg0) : S4x2048x2048.Idx → EReal) (ix3 b s h) := by
  obtain ⟨e0, e1⟩ := idx0 t
  have hb := b.isLt
  have hs := s.isLt
  have hlt : 512 * (t.val / 16) + p.val < 8192 := by omega
  rw [← V_main_v1_at m c ⟨512 * (t.val / 16) + p.val, hlt⟩ h b s hr]
  unfold iblk
  rw [View.read_apply]
  show (V m c main_v1 : S8192x2048.Idx → EReal) (((cfg0.win 0).blk t).view.emb (ix2 p h)) = _
  congr 1
  funext a
  apply Fin.ext
  match a with
  | ⟨0, _⟩ => show win0_0.index t (0 : Fin 2) * 512 + 1 * p.val = 512 * (t.val / 16) + p.val; omega
  | ⟨1, _⟩ => show win0_0.index t (1 : Fin 2) * 2048 + 1 * h.val = h.val; omega

theorem blk1_at (c : Dev nD) (t : Fin cfg0.N) (k : Fin 512) (h : Fin 2048) (K : Fin 8192)
    (hK : K.val = 512 * (t.val % 16) + k.val) :
    (iblk m c 1 t : S512x2048.Idx → EReal) (ix2 k h)
      = (m ((c.tc : Thread nD τ).loc main_arg2) : S8192x2048.Idx → EReal) (ix2 K h) := by
  obtain ⟨e0, e1⟩ := idx1 t
  unfold iblk
  rw [View.read_apply]
  show (V m c main_v2 : S8192x2048.Idx → EReal) (((cfg0.win 1).blk t).view.emb (ix2 k h)) = _
  rw [V_main_v2]
  congr 1
  funext a
  apply Fin.ext
  match a with
  | ⟨0, _⟩ => show win0_1.index t (0 : Fin 2) * 512 + 1 * k.val = K.val; omega
  | ⟨1, _⟩ => show win0_1.index t (1 : Fin 2) * 2048 + 1 * h.val = h.val; omega

theorem blk2_at (c : Dev nD) (t : Fin cfg0.N) (k : Fin 512) (h : Fin 2048) (K : Fin 8192)
    (hK : K.val = 512 * (t.val % 16) + k.val) :
    (iblk m c 2 t : S512x2048.Idx → EReal) (ix2 k h)
      = (m ((c.tc : Thread nD τ).loc main_arg3) : S8192x2048.Idx → EReal) (ix2 K h) := by
  obtain ⟨e0, e1⟩ := idx2 t
  unfold iblk
  rw [View.read_apply]
  show (V m c main_v3 : S8192x2048.Idx → EReal) (((cfg0.win 2).blk t).view.emb (ix2 k h)) = _
  rw [V_main_v3]
  congr 1
  funext a
  apply Fin.ext
  match a with
  | ⟨0, _⟩ => show win0_2.index t (0 : Fin 2) * 512 + 1 * k.val = K.val; omega
  | ⟨1, _⟩ => show win0_2.index t (1 : Fin 2) * 2048 + 1 * h.val = h.val; omega

theorem blk3_at (c : Dev nD) (t : Fin cfg0.N) (h : Fin 2048) (k : Fin 512) (K : Fin 8192)
    (hK : K.val = 512 * (t.val % 16) + k.val) :
    (iblk m c 3 t : S2048x512.Idx → EReal) (ix2 h k)
      = (m ((c.tc : Thread nD τ).loc main_arg4) : S2048x8192.Idx → EReal) (ix2 h K) := by
  obtain ⟨e0, e1⟩ := idx3 t
  unfold iblk
  rw [View.read_apply]
  show (V m c main_v4 : S2048x8192.Idx → EReal) (((cfg0.win 3).blk t).view.emb (ix2 h k)) = _
  rw [V_main_v4]
  congr 1
  funext a
  apply Fin.ext
  match a with
  | ⟨0, _⟩ => show win0_3.index t (0 : Fin 2) * 2048 + 1 * h.val = h.val; omega
  | ⟨1, _⟩ => show win0_3.index t (1 : Fin 2) * 512 + 1 * k.val = K.val; omega

theorem blk4_at (c : Dev nD) (t : Fin cfg0.N) (e : Fin 64) (h : Fin 2048) :
    (iblk m c 4 t : S64x2048.Idx → EReal) (ix2 e h)
      = (m ((c.tc : Thread nD τ).loc main_arg1) : S64x2048.Idx → EReal) (ix2 e h) := by
  obtain ⟨e0, e1⟩ := idx4 t
  unfold iblk
  rw [View.read_apply]
  show (V m c main_v5 : S64x2048.Idx → EReal) (((cfg0.win 4).blk t).view.emb (ix2 e h)) = _
  rw [V_main_v5]
  congr 1
  funext a
  apply Fin.ext
  match a with
  | ⟨0, _⟩ => show win0_4.index t (0 : Fin 2) * 64 + 1 * e.val = e.val; omega
  | ⟨1, _⟩ => show win0_4.index t (1 : Fin 2) * 2048 + 1 * h.val = h.val; omega

end Cert.KernelIdeal.Blocks

end
-- ==== Proof.Arrays.lean ====
/-
  The two result arrays after the run, read at one index: each entry is the entry of the block its token tile
  wrote back at the tile's last inner point, seen through the reshape that restores the batch axis.
-/
import proofs.«124868_j4260607558028_2_alg».proof.Proof.BodyData
import Idealize.ShloMosaic.Lib.ValueIdx
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The block index of the two output windows at a grid point: the token tile, and column block 0. -/
private theorem idx5 : ∀ t : Fin cfg0.N, win0_5.index t (0 : Fin 2) = t.val / 16 ∧ win0_5.index t (1 : Fin 2) = 0 :=
  (by decide +kernel : ∀ t : Fin grid0.N, _)

private theorem idx6 : ∀ t : Fin cfg0.N, win0_6.index t (0 : Fin 2) = t.val / 16 ∧ win0_6.index t (1 : Fin 2) = 0 :=
  (by decide +kernel : ∀ t : Fin grid0.N, _)

/-- The last inner point of the token tile that holds row `r` is a grid point. -/
private theorem tile_lt (r : ℕ) (hr : r < 8192) : 16 * (r / 512) + 15 < cfg0.N := by
  rw [show cfg0.N = 256 from N_0]; omega

/-- `acc` read at equal points and equal indices. -/
private theorem acc_congr (c : Dev nD) {n n' : ℕ} (e : n = n') (hn : n < cfg0.N) (hn' : n' < cfg0.N)
    {y y' : S512x2048.Idx} (ey : y = y') :
    (acc m c n hn : S512x2048.Idx → EReal) y = (acc m c n' hn' : S512x2048.Idx → EReal) y' := by
  subst e; subst ey; rfl

/-- The whole first result array as one function: row `r` is row `r % 512` of what the output block holds
    after the last inner point of `r`'s token tile. -/
private def outArr (c : Dev nD) : S8192x2048.Idx → EReal := fun i =>
  (acc m c (16 * ((i 0).val / 512) + 15) (tile_lt _ (idx2_lt0 i)) : S512x2048.Idx → EReal)
    (ix2 (n0 := 512) (n1 := 2048) ⟨(i 0).val % 512, Nat.mod_lt _ (by decide)⟩ ⟨(i 1).val, idx2_lt1 i⟩)

/-- What a writing point writes back is its block of `outArr`. -/
private theorem flushed5_eq (c : Dev nD) (t : Fin cfg0.N) (hf : (cfg0.win 5).flush t = true) :
    (dats m 0 c).flushed 5 t = ((cfg0.win 5).blk t).view.read (Elt Ideal) (outArr m c) := by
  have ht : t.val % 16 = 15 := (flush0_5 t).mp hf
  show (cfg0.win 5).cut (grid0.coords t) ((dats m 0 c).after 5 t) = _
  rw [after0_5]
  funext y
  show (acc m c t.val t.isLt : S512x2048.Idx → EReal) y = outArr m c (((cfg0.win 5).blk t).view.emb y)
  obtain ⟨i0, i1⟩ := idx5 t
  have hy0 : (y 0).val < 512 := (y 0).isLt
  have hy1 : (y 1).val < 2048 := (y 1).isLt
  have e0 : ((((cfg0.win 5).blk t).view.emb y) 0).val = win0_5.index t (0 : Fin 2) * 512 + 1 * (y 0).val := rfl
  have e1 : ((((cfg0.win 5).blk t).view.emb y) 1).val = win0_5.index t (1 : Fin 2) * 2048 + 1 * (y 1).val := rfl
  unfold outArr
  refine acc_congr m c ?_ _ _ ?_
  · rw [e0, i0]; omega
  · funext a
    apply Fin.ext
    match a with
    | ⟨0, _⟩ => show (y 0).val = ((((cfg0.win 5).blk t).view.emb y) 0).val % 512; rw [e0, i0]; omega
    | ⟨1, _⟩ => show (y 1).val = ((((cfg0.win 5).blk t).view.emb y) 1).val; rw [e1, i1]; omega

/-- The first result after the reshape that restores the batch axis: entry `(b, s, h)` is entry
    `(2048 b + s, h)` of the flat array the region left. -/
private theorem tail7 (c : Dev nD) (b : Fin 4) (s h : Fin 2048) :
    (Pipeline.afterTail₀ cfgs (dats m) 0 (V0 m) [hostOps1] c main_v7 : S4x2048x2048.Idx → EReal) (ix3 b s h)
      = ((dats m 0 c).arrAt 5 cfg0.N : S8192x2048.Idx → EReal)
          (ix2 (n0 := 8192) (n1 := 2048) ⟨2048 * b.val + s.val, by omega⟩ h) := by
  unfold Pipeline.afterTail₀
  show StableHlo.after hostOps1 _ (Proc.devRef .tc main_v7) _ = _
  after_results
  refine (shapeCast_apply (s := S8192x2048) (t := S4x2048x2048) _ shapeCasts_S8192x2048_S4x2048x2048 (ix3 b s h)
    (ix2 (n0 := 8192) (n1 := 2048) ⟨2048 * b.val + s.val, by omega⟩ h) ?_).trans ?_
  · rw [Shape.rowMajor_val_two, Shape.rowMajor_val_three]
    show (2048 * b.val + s.val) * 2048 + h.val = (b.val * 2048 + s.val) * 2048 + h.val
    omega
  · exact congrFun (Pipeline.withArrays_arr spec0 launch0.win.arr_inj c (V0 m c)
      (fun w => (dats m 0 c).arrAt w cfg0.N) 5) _

/-- A row of the flat array lies in the block of the point that writes its token tile. -/
private theorem mem_blk5 (t : Fin cfg0.N) (p : Fin 512) (h : Fin 2048) (r : Fin 8192)
    (hr : r.val = 512 * (t.val / 16) + p.val) :
    ix2 (n0 := 8192) (n1 := 2048) r h ∈ ((cfg0.win 5).blk t).view.set := by
  obtain ⟨i0, i1⟩ := idx5 t
  show _ ∈ ((View.whole main_v6_0).slice (win0_5.rect t)).set
  rw [View.set_slice_whole, Rect.mem_set_unit]
  intro a
  match a with
  | ⟨0, _⟩ =>
    show win0_5.index t (0 : Fin 2) * 512 ≤ r.val ∧ r.val < win0_5.index t (0 : Fin 2) * 512 + 512
    rw [i0]; omega
  | ⟨1, _⟩ =>
    show win0_5.index t (1 : Fin 2) * 2048 ≤ h.val ∧ h.val < win0_5.index t (1 : Fin 2) * 2048 + 2048
    rw [i1]; omega

theorem out_final (c : Dev nD) (b : Fin 4) (s h : Fin 2048) (t : Fin cfg0.N) (p : Fin 512)
    (ht : t.val % 16 = 15) (hr : 2048 * b.val + s.val = 512 * (t.val / 16) + p.val) :
    (Pipeline.afterTail₀ cfgs (dats m) 0 (V0 m) [hostOps1] c main_v7 : S4x2048x2048.Idx → EReal) (ix3 b s h)
      = (acc m c t.val t.isLt : S512x2048.Idx → EReal) (ix2 p h) := by
  rw [tail7]
  refine ((dats m 0 c).arrAt_apply_of_mem 5 (outArr m c) (flushed5_eq m c) cfg0.N t _ t.isLt
    ((flush0_5 t).mpr ht) (mem_blk5 t p h ⟨2048 * b.val + s.val, by omega⟩ hr)).trans ?_
  unfold outArr
  refine acc_congr m c ?_ _ _ ?_
  · show 16 * ((2048 * b.val + s.val) / 512) + 15 = t.val
    rw [hr]; omega
  · funext a
    apply Fin.ext
    match a with
    | ⟨0, _⟩ => show (2048 * b.val + s.val) % 512 = p.val; rw [hr]; omega
    | ⟨1, _⟩ => rfl

/-! ## The routing result: the same road through the second output window -/

/-- `routeAt` read at equal points and equal indices. -/
private theorem routeAt_congr (c : Dev nD) {n n' : ℕ} (e : n = n') (hn : n < cfg0.N) (hn' : n' < cfg0.N)
    {y y' : S512x64.Idx} (ey : y = y') :
    (routeAt m c n hn : S512x64.Idx → EReal) y = (routeAt m c n' hn' : S512x64.Idx → EReal) y' := by
  subst e; subst ey; rfl

/-- The whole routing array as one function: row `r` is row `r % 512` of what the routing block holds
    after the last inner point of `r`'s token tile. -/
private def routeArr (c : Dev nD) : S8192x64.Idx → EReal := fun i =>
  (routeAt m c (16 * ((i 0).val / 512) + 15) (tile_lt _ (idx2_lt0 i)) : S512x64.Idx → EReal)
    (ix2 (n0 := 512) (n1 := 64) ⟨(i 0).val % 512, Nat.mod_lt _ (by decide)⟩ ⟨(i 1).val, idx2_lt1 i⟩)

/-- What a writing point writes back is its block of `routeArr`. -/
private theorem flushed6_eq (c : Dev nD) (t : Fin cfg0.N) (hf : (cfg0.win 6).flush t = true) :
    (dats m 0 c).flushed 6 t = ((cfg0.win 6).blk t).view.read (Elt Ideal) (routeArr m c) := by
  have ht : t.val % 16 = 15 := (flush0_6 t).mp hf
  show (cfg0.win 6).cut (grid0.coords t) ((dats m 0 c).after 6 t) = _
  rw [after0_6]
  funext y
  show (routeAt m c t.val t.isLt : S512x64.Idx → EReal) y = routeArr m c (((cfg0.win 6).blk t).view.emb y)
  obtain ⟨i0, i1⟩ := idx6 t
  have hy0 : (y 0).val < 512 := (y 0).isLt
  have hy1 : (y 1).val < 64 := (y 1).isLt
  have e0 : ((((cfg0.win 6).blk t).view.emb y) 0).val = win0_6.index t (0 : Fin 2) * 512 + 1 * (y 0).val := rfl
  have e1 : ((((cfg0.win 6).blk t).view.emb y) 1).val = win0_6.index t (1 : Fin 2) * 64 + 1 * (y 1).val := rfl
  unfold routeArr
  refine routeAt_congr m c ?_ _ _ ?_
  · rw [e0, i0]; omega
  · funext a
    apply Fin.ext
    match a with
    | ⟨0, _⟩ => show (y 0).val = ((((cfg0.win 6).blk t).view.emb y) 0).val % 512; rw [e0, i0]; omega
    | ⟨1, _⟩ => show (y 1).val = ((((cfg0.win 6).blk t).view.emb y) 1).val; rw [e1, i1]; omega

/-- The routing result after the reshape that restores the batch axis: entry `(b, s, e)` is entry
    `(2048 b + s, e)` of the flat array the region left. -/
private theorem tail8 (c : Dev nD) (b : Fin 4) (s : Fin 2048) (e : Fin 64) :
    (Pipeline.afterTail₀ cfgs (dats m) 0 (V0 m) [hostOps1] c main_v8 : S4x2048x64.Idx → EReal) (ix3 b s e)
      = ((dats m 0 c).arrAt 6 cfg0.N : S8192x64.Idx → EReal)
          (ix2 (n0 := 8192) (n1 := 64) ⟨2048 * b.val + s.val, by omega⟩ e) := by
  unfold Pipeline.afterTail₀
  show StableHlo.after hostOps1 _ (Proc.devRef .tc main_v8) _ = _
  after_results
  refine (shapeCast_apply (s := S8192x64) (t := S4x2048x64) _ shapeCasts_S8192x64_S4x2048x64 (ix3 b s e)
    (ix2 (n0 := 8192) (n1 := 64) ⟨2048 * b.val + s.val, by omega⟩ e) ?_).trans ?_
  · rw [Shape.rowMajor_val_two, Shape.rowMajor_val_three]
    show (2048 * b.val + s.val) * 64 + e.val = (b.val * 2048 + s.val) * 64 + e.val
    omega
  · exact congrFun (Pipeline.withArrays_arr spec0 launch0.win.arr_inj c (V0 m c)
      (fun w => (dats m 0 c).arrAt w cfg0.N) 6) _

/-- A row of the flat routing array lies in the block of the point that writes its token tile. -/
private theorem mem_blk6 (t : Fin cfg0.N) (p : Fin 512) (e : Fin 64) (r : Fin 8192)
    (hr : r.val = 512 * (t.val / 16) + p.val) :
    ix2 (n0 := 8192) (n1 := 64) r e ∈ ((cfg0.win 6).blk t).view.set := by
  obtain ⟨i0, i1⟩ := idx6 t
  show _ ∈ ((View.whole main_v6_1).slice (win0_6.rect t)).set
  rw [View.set_slice_whole, Rect.mem_set_unit]
  intro a
  match a with
  | ⟨0, _⟩ =>
    show win0_6.index t (0 : Fin 2) * 512 ≤ r.val ∧ r.val < win0_6.index t (0 : Fin 2) * 512 + 512
    rw [i0]; omega
  | ⟨1, _⟩ =>
    show win0_6.index t (1 : Fin 2) * 64 ≤ e.val ∧ e.val < win0_6.index t (1 : Fin 2) * 64 + 64
    rw [i1]; omega

theorem route_final (c : Dev nD) (b : Fin 4) (s : Fin 2048) (e : Fin 64) (t : Fin cfg0.N) (p : Fin 512)
    (ht : t.val % 16 = 15) (hr : 2048 * b.val + s.val = 512 * (t.val / 16) + p.val) :
    (Pipeline.afterTail₀ cfgs (dats m) 0 (V0 m) [hostOps1] c main_v8 : S4x2048x64.Idx → EReal) (ix3 b s e)
      = (routeAt m c t.val t.isLt : S512x64.Idx → EReal) (ix2 p e) := by
  rw [tail8]
  refine ((dats m 0 c).arrAt_apply_of_mem 6 (routeArr m c) (flushed6_eq m c) cfg0.N t _ t.isLt
    ((flush0_6 t).mpr ht) (mem_blk6 t p e ⟨2048 * b.val + s.val, by omega⟩ hr)).trans ?_
  unfold routeArr
  refine routeAt_congr m c ?_ _ _ ?_
  · show 16 * ((2048 * b.val + s.val) / 512) + 15 = t.val
    rw [hr]; omega
  · funext a
    apply Fin.ext
    match a with
    | ⟨0, _⟩ => show (2048 * b.val + s.val) % 512 = p.val; rw [hr]; omega
    | ⟨1, _⟩ => rfl

end Cert.KernelIdeal.Arrays

end
-- ==== Proof.Bridge.lean ====
/-
  The kernel's two results are the reference's.

  Over the extended reals every entry of the kernel's output is a sum over the intermediate axis of
  `(g · σ(g) · u) · W_down`, with `g` and `u` the token's projections on the gate and up matrices: the kernel
  adds it up tile by tile of that axis, sixteen tiles of 512, starting from zero, and the reference in one sum of
  8192 terms. Addition of extended reals is associative and commutative, so the two agree whatever the inputs.
  The reference spells `σ` as `1 / (1 + e⁻ˣ)`, which is the definition of the logistic function here. The
  routing result is, on both sides, the token against the router matrix clamped at zero.
-/
import proofs.«124868_j4260607558028_2_alg».proof.Proof.BodyData
import proofs.«124868_j4260607558028_2_alg».proof.Proof.PayAt
import proofs.«124868_j4260607558028_2_alg».proof.Proof.Blocks
import proofs.«124868_j4260607558028_2_alg».proof.Proof.Arrays
import proofs.«124868_j4260607558028_2_alg».proof.Proof.Gen.ReferenceIdeal.Read
import Idealize.ShloMosaic.Lib.IdealHost
import Idealize.ShloMosaic.Lib.ValueIdx
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Body Cert.KernelIdeal.PayAt Cert.KernelIdeal.Blocks
  Cert.KernelIdeal.Arrays

variable (m : (ℓ : Loc nD τ sig) → Buf (Elt Ideal) ℓ) (c : Dev nD)

/-- The five arguments as plain arrays of extended reals. -/
abbrev hsA : S4x2048x2048.Idx → EReal := m ((c.tc : Thread nD τ).loc main_arg0)
abbrev WrA : S64x2048.Idx → EReal := m ((c.tc : Thread nD τ).loc main_arg1)
abbrev WgA : S8192x2048.Idx → EReal := m ((c.tc : Thread nD τ).loc main_arg2)
abbrev WuA : S8192x2048.Idx → EReal := m ((c.tc : Thread nD τ).loc main_arg3)
abbrev WdA : S2048x8192.Idx → EReal := m ((c.tc : Thread nD τ).loc main_arg4)

/-- A token's projection on row `K` of a `[8192, 2048]` matrix. -/
def proj (W : S8192x2048.Idx → EReal) (b : Fin 4) (s : Fin 2048) (K : Fin 8192) : EReal :=
  ∑ h : Fin 2048, hsA m c (ix3 b s h) * W (ix2 K h)

/-- The term of the output entry `(b, s, h)` at position `K` of the intermediate axis (zero past its end, so
    that sums over ranges of naturals can be split and joined). -/
def term (b : Fin 4) (s : Fin 2048) (h : Fin 2048) (K : ℕ) : EReal :=
  if hK : K < 8192 then
    gated (proj m c (WgA m c) b s ⟨K, hK⟩) (proj m c (WuA m c) b s ⟨K, hK⟩) * WdA m c (ix2 h ⟨K, hK⟩)
  else 0

/-! ## The routing block -/

theorem route_first (t : Fin cfg0.N) (p : Fin 512) (e : Fin 64) (b : Fin 4) (s : Fin 2048)
    (hr : 2048 * b.val + s.val = 512 * (t.val / 16) + p.val) :
    (k0_pay2 (iblk m c 0 t) (iblk m c 4 t) : S512x64.Idx → EReal) (ix2 p e)
      = max (∑ h : Fin 2048, hsA m c (ix3 b s h) * WrA m c (ix2 e h)) 0 := by
  rw [pay2_at]
  unfold rowDot
  congr 1
  refine Finset.sum_congr rfl fun h _ => ?_
  rw [blk0_at m c t p h b s hr, blk4_at m c t e h]

/-- The routing block after any point holds the clamped router product of its token tile. -/
theorem routeAt_at : ∀ (n : ℕ) (hn : n < cfg0.N) (p : Fin 512) (e : Fin 64) (b : Fin 4) (s : Fin 2048),
    2048 * b.val + s.val = 512 * (n / 16) + p.val →
    (routeAt m c n hn : S512x64.Idx → EReal) (ix2 p e)
      = max (∑ h : Fin 2048, hsA m c (ix3 b s h) * WrA m c (ix2 e h)) 0
  | 0, hn, p, e, b, s, hr => by
    rw [routeAt_first m c ⟨0, hn⟩ (Nat.zero_mod _)]
    exact route_first m c ⟨0, hn⟩ p e b s hr
  | n + 1, hn, p, e, b, s, hr => by
    by_cases h0 : (n + 1) % 16 = 0
    · rw [routeAt_first m c ⟨n + 1, hn⟩ h0]
      exact route_first m c ⟨n + 1, hn⟩ p e b s hr
    · rw [routeAt_later m c ⟨n + 1, hn⟩ h0]
      exact routeAt_at n (Nat.lt_of_succ_lt hn) p e b s (by
        have : (n + 1) / 16 = n / 16 := by omega
        omega)

/-! ## The output block -/

/-- A partial product over blocks whose entries are the arguments' at tile `i` of the intermediate axis adds
    that tile's terms. Stated over plain blocks, so that it applies at any grid point. -/
theorem pay3_terms (x0 x1 x2 : Vec Ideal S512x2048 .bf16) (x3 : Vec Ideal S2048x512 .bf16) (y : Vec Ideal S512x2048 .f32)
    (p : Fin 512) (h : Fin 2048) (b : Fin 4) (s : Fin 2048) (i : ℕ) (hi : i < 16)
    (e0 : ∀ h' : Fin 2048, (x0 : S512x2048.Idx → EReal) (ix2 p h') = hsA m c (ix3 b s h'))
    (e1 : ∀ (k : Fin 512) (h' : Fin 2048) (hK : 512 * i + k.val < 8192),
      (x1 : S512x2048.Idx → EReal) (ix2 k h') = WgA m c (ix2 ⟨512 * i + k.val, hK⟩ h'))
    (e2 : ∀ (k : Fin 512) (h' : Fin 2048) (hK : 512 * i + k.val < 8192),
      (x2 : S512x2048.Idx → EReal) (ix2 k h') = WuA m c (ix2 ⟨512 * i + k.val, hK⟩ h'))
    (e3 : ∀ (k : Fin 512) (hK : 512 * i + k.val < 8192),
      (x3 : S2048x512.Idx → EReal) (ix2 h k) = WdA m c (ix2 h ⟨512 * i + k.val, hK⟩)) :
    (k0_pay3 x0 x1 x2 x3 y : S512x2048.Idx → EReal) (ix2 p h)
      = (y : S512x2048.Idx → EReal) (ix2 p h) + ∑ K ∈ Finset.Ico (512 * i) (512 * (i + 1)), term m c b s h K := by
  rw [pay3_at]
  congr 1
  rw [Finset.sum_Ico_eq_sum_range, show 512 * (i + 1) - 512 * i = 512 by omega,
    ← Fin.sum_univ_eq_sum_range (fun x => term m c b s h (512 * i + x)) 512]
  refine Finset.sum_congr rfl fun k _ => ?_
  have hK : 512 * i + k.val < 8192 := by have := k.isLt; omega
  unfold term
  rw [dif_pos hK]
  have hg : rowDot x0 x1 p k = proj m c (WgA m c) b s ⟨512 * i + k.val, hK⟩ := by
    unfold rowDot proj
    exact Finset.sum_congr rfl fun h' _ => by rw [e0 h', e1 k h' hK]
  have hu : rowDot x0 x2 p k = proj m c (WuA m c) b s ⟨512 * i + k.val, hK⟩ := by
    unfold rowDot proj
    exact Finset.sum_congr rfl fun h' _ => by rw [e0 h', e2 k h' hK]
  rw [hg, hu, e3 k hK]

/-- One point adds the terms of its tile of the intermediate axis. -/
theorem step_at (t : Fin cfg0.N) (y : Vec Ideal S512x2048 .f32) (p : Fin 512) (h : Fin 2048) (b : Fin 4) (s : Fin 2048)
    (hr : 2048 * b.val + s.val = 512 * (t.val / 16) + p.val) :
    (step m c t y : S512x2048.Idx → EReal) (ix2 p h)
      = (y : S512x2048.Idx → EReal) (ix2 p h)
        + ∑ K ∈ Finset.Ico (512 * (t.val % 16)) (512 * (t.val % 16 + 1)), term m c b s h K :=
  pay3_terms m c (iblk m c 0 t) (iblk m c 1 t) (iblk m c 2 t) (iblk m c 3 t) y p h b s (t.val % 16) (Nat.mod_lt _ (by decide))
    (fun h' => blk0_at m c t p h' b s hr)
    (fun k h' hK => blk1_at m c t k h' ⟨512 * (t.val % 16) + k.val, hK⟩ rfl)
    (fun k h' hK => blk2_at m c t k h' ⟨512 * (t.val % 16) + k.val, hK⟩ rfl)
    (fun k hK => blk3_at m c t h k ⟨512 * (t.val % 16) + k.val, hK⟩ rfl)

/-- The output block after a point of inner index `i` holds the terms of tiles `0 … i`. -/
theorem acc_at : ∀ (n : ℕ) (hn : n < cfg0.N) (p : Fin 512) (h : Fin 2048) (b : Fin 4) (s : Fin 2048),
    2048 * b.val + s.val = 512 * (n / 16) + p.val →
    (acc m c n hn : S512x2048.Idx → EReal) (ix2 p h) = ∑ K ∈ Finset.range (512 * (n % 16 + 1)), term m c b s h K
  | 0, hn, p, h, b, s, hr => by
    rw [acc_first m c ⟨0, hn⟩ (Nat.zero_mod _), step_at m c ⟨0, hn⟩ _ p h b s hr, pay1_at, zero_add,
      Finset.range_eq_Ico]
    rfl
  | n + 1, hn, p, h, b, s, hr => by
    by_cases h0 : (n + 1) % 16 = 0
    · rw [acc_first m c ⟨n + 1, hn⟩ h0, step_at m c ⟨n + 1, hn⟩ _ p h b s hr, pay1_at, zero_add]
      show ∑ K ∈ Finset.Ico (512 * ((n + 1) % 16)) (512 * ((n + 1) % 16 + 1)), term m c b s h K = _
      rw [h0, Finset.range_eq_Ico]
    · rw [acc_later m c ⟨n + 1, hn⟩ h0, step_at m c ⟨n + 1, hn⟩ _ p h b s hr]
      show (acc m c n _ : S512x2048.Idx → EReal) (ix2 p h)
        + ∑ K ∈ Finset.Ico (512 * ((n + 1) % 16)) (512 * ((n + 1) % 16 + 1)), term m c b s h K = _
      rw [acc_at n (Nat.lt_of_succ_lt hn) p h b s (by
          have : (n + 1) / 16 = n / 16 := by omega
          omega),
        show n % 16 + 1 = (n + 1) % 16 by omega]
      exact Finset.sum_range_add_sum_Ico _ (by omega)

/-! ## The reference's stages at an index -/

/-- The reference's spelling of the gated unit is the gated unit. -/
theorem silu_mul (g u : EReal) :
    FloatOps.mulf (F := Ideal) (φ := .f32)
      (FloatOps.mulf (F := Ideal) (φ := .f32) g
        (FloatOps.hostDivf (F := Ideal) (φ := .f32) (FloatOps.ofBits .f32 0x3F800000#32)
          (FloatOps.addf (F := Ideal) (φ := .f32) (FloatOps.ofBits .f32 0x3F800000#32)
            (FloatOps.hostUnary (F := Ideal) (φ := .f32) .exp (FloatOps.hostNegf (F := Ideal) (φ := .f32) g))))) u
      = gated g u := by
  show g * Ideal.div (Ideal.ofBits .f32 0x3F800000#32) (Ideal.ofBits .f32 0x3F800000#32 + Ideal.exp (-g)) * u = _
  rw [Ideal.ofBits_one_f32]
  rfl

/-! ## The two results -/

open Cert.ReferenceIdeal.Read in
theorem lidx0 (b : Fin 4) (s : Fin 2048) (e : Fin 64) (k : Fin 2048) : lidx_main_v0 (ix3 b s e) k = ix3 b s k :=
  funext fun a => by match a with | ⟨0, _⟩ => rfl | ⟨1, _⟩ => rfl | ⟨2, _⟩ => rfl
open Cert.ReferenceIdeal.Read in
theorem ridx0 (b : Fin 4) (s : Fin 2048) (e : Fin 64) (k : Fin 2048) : ridx_main_v0 (ix3 b s e) k = ix2 e k :=
  funext fun a => by match a with | ⟨0, _⟩ => rfl | ⟨1, _⟩ => rfl
open Cert.ReferenceIdeal.Read in
theorem lidx2 (b : Fin 4) (s : Fin 2048) (K : Fin 8192) (k : Fin 2048) : lidx_main_v2 (ix3 b s K) k = ix3 b s k :=
  funext fun a => by match a with | ⟨0, _⟩ => rfl | ⟨1, _⟩ => rfl | ⟨2, _⟩ => rfl
open Cert.ReferenceIdeal.Read in
theorem ridx2 (b : Fin 4) (s : Fin 2048) (K : Fin 8192) (k : Fin 2048) : ridx_main_v2 (ix3 b s K) k = ix2 K k :=
  funext fun a => by match a with | ⟨0, _⟩ => rfl | ⟨1, _⟩ => rfl
open Cert.ReferenceIdeal.Read in
theorem lidx4 (b : Fin 4) (s : Fin 2048) (K : Fin 8192) (k : Fin 2048) : lidx_main_v4 (ix3 b s K) k = ix3 b s k :=
  funext fun a => by match a with | ⟨0, _⟩ => rfl | ⟨1, _⟩ => rfl | ⟨2, _⟩ => rfl
open Cert.ReferenceIdeal.Read in
theorem ridx4 (b : Fin 4) (s : Fin 2048) (K : Fin 8192) (k : Fin 2048) : ridx_main_v4 (ix3 b s K) k = ix2 K k :=
  funext fun a => by match a with | ⟨0, _⟩ => rfl | ⟨1, _⟩ => rfl
open Cert.ReferenceIdeal.Read in
theorem lidx6 (b : Fin 4) (s : Fin 2048) (h : Fin 2048) (K : Fin 8192) : lidx_main_v6 (ix3 b s h) K = ix3 b s K :=
  funext fun a => by match a with | ⟨0, _⟩ => rfl | ⟨1, _⟩ => rfl | ⟨2, _⟩ => rfl
open Cert.ReferenceIdeal.Read in
theorem ridx6 (b : Fin 4) (s : Fin 2048) (h : Fin 2048) (K : Fin 8192) : ridx_main_v6 (ix3 b s h) K = ix2 h K :=
  funext fun a => by match a with | ⟨0, _⟩ => rfl | ⟨1, _⟩ => rfl

/-- The routing result, entry by entry, is the reference's: the token against the router matrix, clamped at
    zero. The entry of token `(b, s)` was written back by its tile's last inner point. -/
theorem route_eq (i : S4x2048x64.Idx) :
    (Pipeline.afterTail₀ cfgs (dats m) 0 (V0 m) [hostOps1] c main_v8 : S4x2048x64.Idx → EReal) i
      = Cert.ReferenceIdeal.Read.val_main_v1 (F := Ideal) (hsA m c) (WrA m c) i := by
  obtain ⟨b, s, e, rfl⟩ : ∃ (b : Fin 4) (s : Fin 2048) (e : Fin 64), i = ix3 b s e := ⟨i 0, i 1, i 2, eq_ix3 i⟩
  have hb := b.isLt
  have hs := s.isLt
  have hlt : 16 * ((2048 * b.val + s.val) / 512) + 15 < cfg0.N := by
    rw [show cfg0.N = 256 from N_0]; omega
  have hp : (2048 * b.val + s.val) % 512 < 512 := Nat.mod_lt _ (by decide)
  rw [route_final m c b s e ⟨_, hlt⟩ ⟨_, hp⟩
      (by show (16 * ((2048 * b.val + s.val) / 512) + 15) % 16 = 15; omega)
      (by show 2048 * b.val + s.val = 512 * ((16 * ((2048 * b.val + s.val) / 512) + 15) / 16) + (2048 * b.val + s.val) % 512; omega),
    routeAt_at m c _ hlt ⟨_, hp⟩ e b s
      (by show 2048 * b.val + s.val = 512 * ((16 * ((2048 * b.val + s.val) / 512) + 15) / 16) + (2048 * b.val + s.val) % 512; omega)]
  rw [Cert.ReferenceIdeal.Read.val_main_v1_apply, Cert.ReferenceIdeal.Read.val_main_v0_apply,
    Cert.ReferenceIdeal.Read.val_main_call0_v0_apply, Cert.ReferenceIdeal.Read.val_main_call0_cst_apply]
  simp only [lidx0, ridx0]
  show _ = max _ (Ideal.ofBits .f32 0x00000000#32)
  rw [Ideal.ofBits_zero_f32]

/-- The output, entry by entry, is the reference's: sixteen tiles of 512 terms added up from zero are the one
    sum of 8192 terms. -/
theorem out_eq (i : S4x2048x2048.Idx) :
    (Pipeline.afterTail₀ cfgs (dats m) 0 (V0 m) [hostOps1] c main_v7 : S4x2048x2048.Idx → EReal) i
      = Cert.ReferenceIdeal.Read.val_main_v6 (F := Ideal) (hsA m c) (WgA m c) (WuA m c) (WdA m c) i := by
  obtain ⟨b, s, h, rfl⟩ : ∃ (b : Fin 4) (s : Fin 2048) (h : Fin 2048), i = ix3 b s h := ⟨i 0, i 1, i 2, eq_ix3 i⟩
  have hb := b.isLt
  have hs := s.isLt
  have hlt : 16 * ((2048 * b.val + s.val) / 512) + 15 < cfg0.N := by
    rw [show cfg0.N = 256 from N_0]; omega
  have hp : (2048 * b.val + s.val) % 512 < 512 := Nat.mod_lt _ (by decide)
  rw [out_final m c b s h ⟨_, hlt⟩ ⟨_, hp⟩
      (by show (16 * ((2048 * b.val + s.val) / 512) + 15) % 16 = 15; omega)
      (by show 2048 * b.val + s.val = 512 * ((16 * ((2048 * b.val + s.val) / 512) + 15) / 16) + (2048 * b.val + s.val) % 512; omega),
    acc_at m c _ hlt ⟨_, hp⟩ h b s
      (by show 2048 * b.val + s.val = 512 * ((16 * ((2048 * b.val + s.val) / 512) + 15) / 16) + (2048 * b.val + s.val) % 512; omega),
    show 512 * ((16 * ((2048 * b.val + s.val) / 512) + 15) % 16 + 1) = 8192 by omega,
    ← Fin.sum_univ_eq_sum_range (fun K => term m c b s h K) 8192,
    Cert.ReferenceIdeal.Read.val_main_v6_apply]
  show (∑ K : Fin 8192, term m c b s h K.val : EReal)
    = (∑ K : Fin 8192, (Cert.ReferenceIdeal.Read.val_main_v5 (F := Ideal) (hsA m c) (WgA m c) (WuA m c)
        (Cert.ReferenceIdeal.Read.lidx_main_v6 (ix3 b s h) K) : EReal)
        * WdA m c (Cert.ReferenceIdeal.Read.ridx_main_v6 (ix3 b s h) K) : EReal)
  refine Finset.sum_congr rfl fun K _ => ?_
  unfold term
  rw [dif_pos K.isLt, lidx6, ridx6,
    Cert.ReferenceIdeal.Read.val_main_v5_apply, Cert.ReferenceIdeal.Read.val_main_v3_apply,
    Cert.ReferenceIdeal.Read.val_main_call1_v5_apply, Cert.ReferenceIdeal.Read.val_main_call1_v4_apply,
    Cert.ReferenceIdeal.Read.val_main_call1_cst_0_apply, Cert.ReferenceIdeal.Read.val_main_call1_v3_apply,
    Cert.ReferenceIdeal.Read.val_main_call1_v2_apply, Cert.ReferenceIdeal.Read.val_main_call1_cst_apply,
    Cert.ReferenceIdeal.Read.val_main_call1_v1_apply, Cert.ReferenceIdeal.Read.val_main_call1_v0_apply,
    Cert.ReferenceIdeal.Read.val_main_v2_apply, Cert.ReferenceIdeal.Read.val_main_v4_apply]
  simp only [lidx2, ridx2, lidx4, ridx4]
  rw [silu_mul]
  rfl

end Cert.Bridge

end
-- ==== Proof.lean ====
/-
  A gated feed-forward block with a clamped router, tiled for the matrix unit, against its plain einsum form.

  For hidden states `x : [4, 2048, 2048]` and matrices `W_router : [64, 2048]`, `W_gate, W_up : [8192, 2048]`,
  `W_down : [2048, 8192]` both programs return
    `out[b, s, h]   = Σ_k (g · σ(g) · u)[b, s, k] · W_down[h, k]`, `g = x · W_gateᵀ`, `u = x · W_upᵀ`,
    `route[b, s, e] = max (x · W_routerᵀ)[b, s, e] 0`.
  The kernel walks a 16 × 16 grid: 16 tiles of 512 tokens (batch and sequence flattened) by 16 tiles of 512
  positions of the intermediate axis `k`. At the first inner step it zeroes a token tile's output block and
  writes its routing block; at every inner step it adds the partial product of one tile of `k`; after the
  sixteenth both blocks are written back. Over the extended reals the sixteen partial sums added up from zero
  are the one sum over `k` (addition is associative and commutative there, so nothing is asked of the inputs),
  the casts to the narrower float format are the identity, the matrix unit's product into a zero accumulator is
  the plain sum of products, and the reference's `1 / (1 + e⁻ˣ)` is the logistic function by definition.

  The frames: each kernel program runs to the end from any inputs, by the body's specification at the three
  kinds of grid point (first, middle, last inner step); the reference is a straight line of array operations.
  The idealization rewrote nothing, so the kernel's two readings are one text and `preserves` has nothing to
  state.
-/
import proofs.«124868_j4260607558028_2_alg».proof.Defs
import proofs.«124868_j4260607558028_2_alg».proof.Proof.Gen.Kernel
import proofs.«124868_j4260607558028_2_alg».proof.Proof.Gen.KernelIdeal
import proofs.«124868_j4260607558028_2_alg».proof.Proof.Gen.ReferenceIdeal
import proofs.«124868_j4260607558028_2_alg».proof.Proof.Gen.ReferenceIdeal.Run
import proofs.«124868_j4260607558028_2_alg».proof.Proof.Gen.ReferenceIdeal.Read
import proofs.«124868_j4260607558028_2_alg».proof.Proof.Gen.Pre_finite_inputs
import proofs.«124868_j4260607558028_2_alg».proof.Proof.KernelBody
import proofs.«124868_j4260607558028_2_alg».proof.Proof.Body
import proofs.«124868_j4260607558028_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

section
open Cert.KernelIdeal Cert.KernelIdeal.Gen Cert.KernelIdeal.Body

/-- The idealized kernel's run with its two results named: what the operations after the call compute from the
    arrays the write-backs leave. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v7 (Pipeline.mem_restRefs_of main_v7 (by decide) (by decide)),
     (h c).2 main_v8 (Pipeline.mem_restRefs_of main_v8 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main (F := Ideal) m ρ)

end

/-- From inputs that agree both programs end with the same two results: the kernel's are read off its run entry
    by entry, the reference's are its stages, and the two are one function of the inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1, (hagree c).2.2.2.1, (hagree c).2.2.2.2]
    exact funext fun i => (Cert.Bridge.out_eq m c i).symm
  · rw [(hagree c).1, (hagree c).2.1]
    exact funext fun i => (Cert.Bridge.route_eq m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
